-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S4x8192 : Shape := ⟨2, ![4, 8192]⟩
abbrev S1024x1024 : Shape := ⟨2, ![1024, 1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x8192x1024 .f32) (main_arg1 : IVec S4x8192 1) (main_arg2 : FVec F S1024x1024 .f32) (main_arg3 : FVec F S1024x1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x8192x1024 : Shape := ⟨3, ![4, 8192, 1024]⟩
abbrev S4x8192 : Shape := ⟨2, ![4, 8192]⟩
abbrev S1024x1024 : Shape := ⟨2, ![1024, 1024]⟩
abbrev S32768x1024 : Shape := ⟨2, ![32768, 1024]⟩
abbrev S32768x1 : Shape := ⟨2, ![32768, 1]⟩
abbrev S512x1024 : Shape := ⟨2, ![512, 1024]⟩
abbrev S512x1 : Shape := ⟨2, ![512, 1]⟩

abbrev nBuf : Space → Nat
  | .hbm => 11
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i1⟩
  | .hbm, ⟨2, _⟩ => ⟨S1024x1024, .f32⟩
  | .hbm, ⟨3, _⟩ => ⟨S1024x1024, .f32⟩
  | .hbm, ⟨4, _⟩ => ⟨S32768x1024, .f32⟩
  | .hbm, ⟨5, _⟩ => ⟨S32768x1, .i1⟩
  | .hbm, ⟨6, _⟩ => ⟨S32768x1, .f32⟩
  | .hbm, ⟨7, _⟩ => ⟨S1024x1024, .f32⟩
  | .hbm, ⟨8, _⟩ => ⟨S1024x1024, .f32⟩
  | .hbm, ⟨9, _⟩ => ⟨S32768x1024, .f32⟩
  | .hbm, ⟨10, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1, .f32⟩
  | .local _ .vmem, ⟨5, _⟩ => ⟨S512x1, .f32⟩
  | .local _ .vmem, ⟨6, _⟩ => ⟨S512x1024, .f32⟩
  | .local _ .vmem, ⟨7, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x8192x1024_S32768x1024 : S4x8192x1024.ShapeCasts S32768x1024
  shapeCasts_S4x8192_S32768x1 : S4x8192.ShapeCasts S32768x1
  transposes_S1024x1024_S1024x1024_1_0 : S1024x1024.Transposes [1, 0] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  shapeCasts_S32768x1024_S4x8192x1024 : S32768x1024.ShapeCasts S4x8192x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S32768x1.size a
  hwx0_3 : ∀ i : grid0.Coords, EltTy.bits .f32 = 32 ∨ (Rect.block (s := S32768x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S4x8192 : Shape := ⟨2, ![4, 8192]⟩
abbrev S1024x1024 : Shape := ⟨2, ![1024, 1024]⟩
abbrev S4x8192x1 : Shape := ⟨3, ![4, 8192, 1]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i1⟩
  | .hbm, ⟨2, _⟩ => ⟨S1024x1024, .f32⟩
  | .hbm, ⟨3, _⟩ => ⟨S1024x1024, .f32⟩
  | .hbm, ⟨4, _⟩ => ⟨S4x8192x1, .i1⟩
  | .hbm, ⟨5, _⟩ => ⟨S_, .f32⟩
  | .hbm, ⟨6, _⟩ => ⟨S_, .f32⟩
  | .hbm, ⟨7, _⟩ => ⟨S4x8192x1024, .i1⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S_, .f32⟩
  | .hbm, ⟨13, _⟩ => ⟨S4x8192x1024, .i1⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩

abbrev nD : Nat := 1
abbrev τ : Topo := Topo.v7x

variable {F : FTy → Type} [FloatOps F]

class Facts₀ : Prop where
  bcast_S4x8192_S4x8192x1_0_1 : S4x8192.BroadcastsInDim S4x8192x1 (![0, 1] : Fin 2 → Fin S4x8192x1.rank)
  bcast_S4x8192x1_S4x8192x1024_0_1_2 : S4x8192x1.BroadcastsInDim S4x8192x1024 (![0, 1, 2] : Fin 3 → Fin S4x8192x1024.rank)
  bcast_S_S4x8192x1024 : S_.BroadcastsInDim S4x8192x1024 (![] : Fin 0 → Fin S4x8192x1024.rank)
  dot_S4x8192x1024_S1024x1024_S4x8192x1024_2_1_01_0_n_n_wf : DotDims.WF S4x8192x1024 S1024x1024 S4x8192x1024 [2] [1] [0, 1] [0] [] []

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf

class Facts : Prop extends Facts₀ where

variable [Facts]
-- ==== Proof.Routed.lean ====
/-
  Per-token routing between two linear experts, as one function of the argument arrays.

  For a token `(b, s)` and an output feature `o` the result is the row product of `x[b, s, ·]` with ONE of
  the two weight matrices, chosen by the token's mask bit:
      routed x mask wv wt (b, s, o) = Σ_d x[b, s, d] · wv[o, d]   if mask[b, s] = 1
                                      = Σ_d x[b, s, d] · wt[o, d]   otherwise.
  Two programs reach this value differently. One computes BOTH row products and blends them with the bit read as
  a number `g ∈ {0, 1}`: `g · A + (1 − g) · B`. The other zeroes the token's row on the expert it does not use and adds
  the two products: `Σ_d sel(x, 0) · wv + Σ_d sel(0, x) · wt`. On the extended reals `0 · y = 0` for EVERY `y`
  (infinite ones included), `1 · y = y`, `1 − 1 = 0`, `1 − 0 = 1` and `y + 0 = y`, so both collapse to the chosen
  product whatever the operands are: neither law below asks its operands to be finite.
-/
import Idealize.ShloMosaic.Lib.ValueIdx
import Idealize.ShloMosaic.Lib.IdealHost

noncomputable section

open scoped BigOperators

namespace Cert.Routed

open Idealize.ShloMosaic Idealize.ShloMosaic.ValueIdx

/-- The tokens' activations `[4, 8192, 1024]`, the mask `[4, 8192]`, an expert's weights `[1024, 1024]` (output
    feature first, input feature second). -/
abbrev SX : Shape := ⟨3, ![4, 8192, 1024]⟩
abbrev SM : Shape := ⟨2, ![4, 8192]⟩
abbrev SW : Shape := ⟨2, ![1024, 1024]⟩

/-- Token `(b, s)`'s row product with the expert `w` at output feature `o`: `Σ_d x[b, s, d] · w[o, d]`. -/
def rowDot (x : SX.Idx → EReal) (w : SW.Idx → EReal) (b : Fin 4) (s : Fin 8192) (o : Fin 1024) : EReal :=
  ∑ k : Fin 1024, x (ix3 b s k) * w (ix2 o k)

/-- The routed linear layer: each token's row product with the expert its mask bit names. -/
def routed (x : SX.Idx → EReal) (mask : SM.Idx → BitVec 1) (wv wt : SW.Idx → EReal) : SX.Idx → EReal :=
  fun i => if mask (ix2 (i 0) (i 1)) = 1#1 then rowDot x wv (i 0) (i 1) (i 2) else rowDot x wt (i 0) (i 1) (i 2)

/-- The mask bit read as a number is `0` or `1`. -/
theorem gate_zero : (((0#1 : BitVec 1).toNat : ℝ) : EReal) = 0 := by norm_num
theorem gate_one : (((1#1 : BitVec 1).toNat : ℝ) : EReal) = 1 := by norm_num

/-- BLENDING both products by the bit read as a number picks one of them: `g · A + (1 − g) · B` is `A` at `g = 1`
    and `B` at `g = 0`, for any extended reals `A`, `B`. -/
theorem blend_eq (b : BitVec 1) (A B : EReal) :
    ((b.toNat : ℝ) : EReal) * A + ((1 : EReal) - ((b.toNat : ℝ) : EReal)) * B = if b = 1#1 then A else B := by
  rcases BitVec.eq_zero_or_eq_one b with h | h
  · subst h
    rw [gate_zero, zero_mul, zero_add, sub_zero, one_mul, if_neg (by decide)]
  · subst h
    have h11 : (1 : EReal) - 1 = 0 := by
      rw [show (1 : EReal) = ((1 : ℝ) : EReal) by norm_cast, ← EReal.coe_sub]; norm_num
    rw [gate_one, one_mul, h11, zero_mul, add_zero, if_pos rfl]

/-- ZEROING the row on the expert that is not used and adding the two products picks one of them too: the zeroed row's
    product is a sum of zeros. -/
theorem gated_sum_eq (b : BitVec 1) (x wv wt : Fin 1024 → EReal) :
    (∑ k : Fin 1024, Scalar.select b (x k) 0 * wv k) + (∑ k : Fin 1024, Scalar.select b 0 (x k) * wt k)
      = if b = 1#1 then ∑ k : Fin 1024, x k * wv k else ∑ k : Fin 1024, x k * wt k := by
  rcases BitVec.eq_zero_or_eq_one b with h | h
  · subst h
    simp only [select_zero, zero_mul, Finset.sum_const_zero, zero_add]
    rw [if_neg (by decide)]
  · subst h
    simp only [select_one, zero_mul, Finset.sum_const_zero, add_zero]
    rw [if_pos trivial]

end Cert.Routed

end
-- ==== Proof.RefRouted.lean ====
/-
  The reference's result is the routed linear layer.

  The reference masks the activations per token — `sel(mask, x, 0)` for the first expert, `sel(mask, 0, x)` for the second,
  the mask bit of token `(b, s)` broadcast along the feature axis —, contracts each masked copy with its expert's weights
  over the input feature, and adds the two products. Read at an output index `(b, s, o)` every term of either sum
  carries the SAME bit `mask[b, s]` (the contracted coordinate does not reach the mask), so the sum of the two products is
  the routed layer's value there by the zeroed-row law.
-/
import proofs.«111194_j17377437680121_1_alg».proof.Proof.Gen.ReferenceIdeal.Read
import proofs.«111194_j17377437680121_1_alg».proof.Proof.Routed

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Routed

/-- The activation a term of either product reads: the token's row at the contracted feature. -/
theorem act_idx_v (a : Fin 4) (b : Fin 8192) (o k : Fin 1024) : lidx_main_v2 (ix3 a b o) k = ix3 a b k :=
  funext fun d => Fin.ext (by match d with | ⟨0, _⟩ => rfl | ⟨1, _⟩ => rfl | ⟨2, _⟩ => rfl)
theorem act_idx_t (a : Fin 4) (b : Fin 8192) (o k : Fin 1024) : lidx_main_v4 (ix3 a b o) k = ix3 a b k :=
  funext fun d => Fin.ext (by match d with | ⟨0, _⟩ => rfl | ⟨1, _⟩ => rfl | ⟨2, _⟩ => rfl)
/-- The weight a term reads: the output feature's row at the contracted feature. -/
theorem wt_idx_v (a : Fin 4) (b : Fin 8192) (o k : Fin 1024) : ridx_main_v2 (ix3 a b o) k = ix2 o k :=
  funext fun d => Fin.ext (by match d with | ⟨0, _⟩ => rfl | ⟨1, _⟩ => rfl)
theorem wt_idx_t (a : Fin 4) (b : Fin 8192) (o k : Fin 1024) : ridx_main_v4 (ix3 a b o) k = ix2 o k :=
  funext fun d => Fin.ext (by match d with | ⟨0, _⟩ => rfl | ⟨1, _⟩ => rfl)

/-- The first expert's masked activations at `(a, b, k)`: the activation where token `(a, b)`'s bit is set, zero elsewhere. -/
theorem masked_v (x0 : (⟨S4x8192x1024, .f32⟩ : BufTy).Contents (Elt Ideal)) (x1 : (⟨S4x8192, .i1⟩ : BufTy).Contents (Elt Ideal))
    (a : Fin 4) (b : Fin 8192) (k : Fin 1024) :
    val_main_v1 (F := Ideal) x0 x1 (ix3 a b k) = Scalar.select (x1 (ix2 a b)) (x0 (ix3 a b k)) (0 : EReal) := by
  rw [val_main_v1_apply, val_main_call0_v1_apply, val_main_v0_apply, val_main_call0_v2_apply, val_main_call0_v0_apply,
    val_main_cst_apply, Ideal.ofBits_def, Ideal.ofBits_zero_f32,
    show idx_main_v0 (idx_main_call0_v1 (ix3 a b k)) = ix2 a b from
      funext fun d => Fin.ext (by match d with | ⟨0, _⟩ => rfl | ⟨1, _⟩ => rfl)]

/-- The second expert's: zero where the token's bit is set, the activation elsewhere. -/
theorem masked_t (x0 : (⟨S4x8192x1024, .f32⟩ : BufTy).Contents (Elt Ideal)) (x1 : (⟨S4x8192, .i1⟩ : BufTy).Contents (Elt Ideal))
    (a : Fin 4) (b : Fin 8192) (k : Fin 1024) :
    val_main_v3 (F := Ideal) x0 x1 (ix3 a b k) = Scalar.select (x1 (ix2 a b)) (0 : EReal) (x0 (ix3 a b k)) := by
  rw [val_main_v3_apply, val_main_call1_v1_apply, val_main_v0_apply, val_main_call1_v2_apply, val_main_call1_v0_apply,
    val_main_cst_0_apply, Ideal.ofBits_def, Ideal.ofBits_zero_f32,
    show idx_main_v0 (idx_main_call1_v1 (ix3 a b k)) = ix2 a b from
      funext fun d => Fin.ext (by match d with | ⟨0, _⟩ => rfl | ⟨1, _⟩ => rfl)]

/-- The reference's last stage, as a function of the four arguments, is the routed layer. -/
theorem ref_routed (x0 : (⟨S4x8192x1024, .f32⟩ : BufTy).Contents (Elt Ideal)) (x1 : (⟨S4x8192, .i1⟩ : BufTy).Contents (Elt Ideal))
    (x2 x3 : (⟨S1024x1024, .f32⟩ : BufTy).Contents (Elt Ideal)) :
    val_main_v5 (F := Ideal) x0 x1 x2 x3 = routed x0 x1 x2 x3 := by
  funext i
  obtain ⟨a, b, o, rfl⟩ : ∃ (a : Fin 4) (b : Fin 8192) (o : Fin 1024), i = ix3 a b o := ⟨i 0, i 1, i 2, eq_ix3 i⟩
  rw [val_main_v5_apply, val_main_v2_apply, val_main_v4_apply, Ideal.addf_def]
  have hv : ∀ k : Fin 1024, val_main_v1 (F := Ideal) x0 x1 (lidx_main_v2 (ix3 a b o) k) * x2 (ridx_main_v2 (ix3 a b o) k)
      = Scalar.select (x1 (ix2 a b)) (x0 (ix3 a b k)) (0 : EReal) * x2 (ix2 o k) := fun k => by
    rw [act_idx_v, wt_idx_v, masked_v]
  have ht : ∀ k : Fin 1024, val_main_v3 (F := Ideal) x0 x1 (lidx_main_v4 (ix3 a b o) k) * x3 (ridx_main_v4 (ix3 a b o) k)
      = Scalar.select (x1 (ix2 a b)) (0 : EReal) (x0 (ix3 a b k)) * x3 (ix2 o k) := fun k => by
    rw [act_idx_t, wt_idx_t, masked_t]
  rw [Finset.sum_congr rfl (fun k _ => hv k), Finset.sum_congr rfl (fun k _ => ht k)]
  exact gated_sum_eq (x1 (ix2 a b)) (fun k => x0 (ix3 a b k)) (fun k => x2 (ix2 o k)) (fun k => x3 (ix2 o k))

end Cert.ReferenceIdeal.RefValue

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.PointValue.lean ====
/-
  One grid point's arithmetic, read at an element of its output block.

  A grid point holds 512 tokens' activations `xb : [512, 1024]`, the two experts' weights ALREADY transposed
  `wvT, wtT : [1024, 1024]` (input feature first, output feature second) and the tokens' gates as a column
  `g : [512, 1]`. It forms both block products `xb · wvT` and `xb · wtT` (into zero accumulators; the narrowing of the
  operands to a shorter float format changes nothing on the extended reals) and blends them row by row:
      out[p, q] = g[p, 0] · (Σ_k xb[p, k] · wvT[k, q]) + (1 − g[p, 0]) · (Σ_k xb[p, k] · wtT[k, q]).
  The gate column reaches every output column of its row by a broadcast; the constant `1` is the float word of one.
-/
import proofs.«111194_j17377437680121_1_alg».proof.Proof.Gen.KernelIdeal.Skeleton
import proofs.«111194_j17377437680121_1_alg».proof.Proof.LibPlainDot
import Idealize.ShloMosaic.Lib.Pipeline.Value
import Idealize.ShloMosaic.Lib.ValueIdx
import Idealize.ShloMosaic.Lib.IdealHost

noncomputable section

open scoped BigOperators

namespace Cert.KernelIdeal.PointValue

open Cert.KernelIdeal Cert.KernelIdeal.Gen
open Idealize.ShloMosaic Idealize.ShloMosaic.ValueIdx

/-- The block product's dimension numbers are the plain ones: rows by columns, contracted on the left operand's second
    axis and the right operand's first. -/
theorem dot_plain : dot_S512x1024_S1024x1024_S512x1024_1_0_0_1_n_n = DotDims.plain 512 1024 1024 := rfl

/-- A block product into the zero accumulator at `(p, q)`: the sum over the shared axis. -/
theorem block_product (l : FVec Ideal S512x1024 .bf16) (r : FVec Ideal S1024x1024 .bf16) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  rw [dot_plain]
  exact PlainDot.matmul_zero_apply 512 1024 1024 none l r (ix2 p q)

/-- A column `[512, 1]` broadcast along the rows' 1024 columns reads, at `(p, q)`, the column's entry of row `p`. -/
theorem column_broadcast {α : Type} (v : S512x1.Idx → α) (h : S512x1.Broadcasts S512x1024) (p : Fin 512) (q : Fin 1024) :
    broadcastTo S512x1024 v h (ix2 p q) = v (ix2 p (0 : Fin 1)) :=
  broadcastTo_apply v h (ix2 p q) (ix2 p (0 : Fin 1)) (fun a => match a with
    | ⟨0, _⟩ => by show p.val = if (512 : Nat) = 1 then 0 else p.val; rw [if_neg (by decide)]
    | ⟨1, _⟩ => by show (0 : Nat) = if (1 : Nat) = 1 then 0 else q.val; rw [if_pos rfl])

/-- THE POINT'S OUTPUT at `(p, q)`: the gate of row `p` times the first product plus its complement times the second. -/
theorem point_apply (xb : Vec Ideal S512x1024 .f32) (wvT wtT : Vec Ideal S1024x1024 .f32) (g : Vec Ideal S512x1 .f32)
    (p : Fin 512) (q : Fin 1024) :
    k0_pay1 (F := Ideal) xb wvT wtT g (ix2 p q)
      = g (ix2 p (0 : Fin 1)) * (∑ k : Fin 1024, xb (ix2 p k) * wvT (ix2 k q))
        + ((1 : EReal) - g (ix2 p (0 : Fin 1))) * (∑ k : Fin 1024, xb (ix2 p k) * wtT (ix2 k q)) := by
  unfold k0_pay1
  simp only [shapeCast_self]
  rw [addf_apply, mulf_apply, mulf_apply, column_broadcast, column_broadcast, block_product, block_product,
    subf_apply, broadcast_apply]
  simp only [truncf_apply]
  rw [show Scalar.ofBits (F := Ideal) .f32 0x3F800000#32 = (1 : EReal) from Ideal.ofBits_one_f32]

end Cert.KernelIdeal.PointValue

end
-- ==== Proof.Flatten.lean ====
/-
  The routed layer with the tokens flattened to one axis, and the layout changes between the two forms.

  The 4 × 8192 tokens are numbered row-major: token `(b, s)` is row `r = 8192 · b + s` of a `[32768, ·]` array, so
  `b = r / 8192` and `s = r % 8192`. A row-major reshape between `[4, 8192, n]` and `[32768, n]` moves an element to the
  index with the same row-major position, which is this renumbering on the leading axes and the identity on the last. A
  transposed weight matrix reads the original with its two coordinates swapped.
  `flat` is the routed layer over flattened tokens; reshaped back to `[4, 8192, 1024]` it is the routed layer. A row's
  blend of its two row products by the row's bit read as a number is `flat` at that row (the blending law).
-/
import proofs.«111194_j17377437680121_1_alg».proof.Proof.Routed
import Idealize.ShloMosaic.Lib.Pipeline.Value

noncomputable section

open scoped BigOperators

namespace Cert.Routed

open Idealize.ShloMosaic Idealize.ShloMosaic.ValueIdx

/-- Flattened activations / result `[32768, 1024]` and the flattened mask as a column `[32768, 1]`. -/
abbrev SF : Shape := ⟨2, ![32768, 1024]⟩
abbrev SG : Shape := ⟨2, ![32768, 1]⟩

/-- Row `r`'s batch `r / 8192` and position `r % 8192`. -/
def rowTok (r : Fin 32768) : Fin 4 := ⟨r.val / 8192, by have := r.isLt; omega⟩
def rowPos (r : Fin 32768) : Fin 8192 := ⟨r.val % 8192, by omega⟩

/-- The routed layer over flattened tokens. -/
def flat (x : SX.Idx → EReal) (mask : SM.Idx → BitVec 1) (wv wt : SW.Idx → EReal) : SF.Idx → EReal :=
  fun i => routed x mask wv wt (ix3 (rowTok (i 0)) (rowPos (i 0)) (i 1))

/-- Activations flattened by a row-major reshape: row `r`, feature `k` is token `(r / 8192, r % 8192)`'s feature `k`. -/
theorem flatten_x {α : Type} (X : SX.Idx → α) (h : SX.ShapeCasts SF) (r : Fin 32768) (k : Fin 1024) :
    shapeCast SF X h (ix2 r k) = X (ix3 (rowTok r) (rowPos r) k) :=
  shapeCast_apply X h (ix2 r k) (ix3 (rowTok r) (rowPos r) k) (by
    rw [Shape.rowMajor_val_three, Shape.rowMajor_val_two]
    show (r.val / 8192 * 8192 + r.val % 8192) * 1024 + k.val = r.val * 1024 + k.val
    omega)

/-- The mask flattened to a column: row `r` is token `(r / 8192, r % 8192)`'s bit. -/
theorem flatten_mask {α : Type} (M : SM.Idx → α) (h : SM.ShapeCasts SG) (r : Fin 32768) :
    shapeCast SG M h (ix2 r (0 : Fin 1)) = M (ix2 (rowTok r) (rowPos r)) :=
  shapeCast_apply M h (ix2 r (0 : Fin 1)) (ix2 (rowTok r) (rowPos r)) (by
    rw [Shape.rowMajor_val_two, Shape.rowMajor_val_two]
    show r.val / 8192 * 8192 + r.val % 8192 = r.val * 1 + 0
    omega)

/-- A transposed weight matrix at `(k, q)` is the matrix at `(q, k)`. -/
theorem transpose_w {α : Type} (W : SW.Idx → α) (h : SW.Transposes [1, 0] SW) (k q : Fin 1024) :
    transpose SW [1, 0] W h (ix2 k q) = W (ix2 q k) :=
  transpose_apply [1, 0] W h (ix2 k q) (ix2 q k) (fun b => match b with
    | ⟨0, _⟩ => rfl
    | ⟨1, _⟩ => rfl)

/-- `flat` reshaped back to `[4, 8192, 1024]` is the routed layer. -/
theorem unflatten (x : SX.Idx → EReal) (mask : SM.Idx → BitVec 1) (wv wt : SW.Idx → EReal) (h : SF.ShapeCasts SX) :
    shapeCast SX (flat x mask wv wt) h = routed x mask wv wt := by
  funext j
  have hj0 : (j 0).val < 4 := (j 0).isLt
  have hj1 : (j 1).val < 8192 := (j 1).isLt
  let r : Fin 32768 := ⟨(j 0).val * 8192 + (j 1).val, by omega⟩
  rw [shapeCast_apply (flat x mask wv wt) h j (ix2 r (j 2)) (by
    rw [Shape.rowMajor_val_three, Shape.rowMajor_val_two]
    show ((j 0).val * 8192 + (j 1).val) * 1024 + (j 2).val = ((j 0).val * 8192 + (j 1).val) * 1024 + (j 2).val
    rfl)]
  show routed x mask wv wt (ix3 (rowTok r) (rowPos r) (j 2)) = routed x mask wv wt j
  refine congrArg (routed x mask wv wt) (funext fun a => Fin.ext ?_)
  match a with
  | ⟨0, _⟩ => show ((j 0).val * 8192 + (j 1).val) / 8192 = (j 0).val; omega
  | ⟨1, _⟩ => show ((j 0).val * 8192 + (j 1).val) % 8192 = (j 1).val; omega
  | ⟨2, _⟩ => rfl

/-- A row's blend of its two row products by its bit read as a number is `flat` at that row. -/
theorem blend_row (x : SX.Idx → EReal) (mask : SM.Idx → BitVec 1) (wv wt : SW.Idx → EReal) (r : Fin 32768) (q : Fin 1024) :
    (((mask (ix2 (rowTok r) (rowPos r))).toNat : ℝ) : EReal) * (∑ k : Fin 1024, x (ix3 (rowTok r) (rowPos r) k) * wv (ix2 q k))
      + ((1 : EReal) - (((mask (ix2 (rowTok r) (rowPos r))).toNat : ℝ) : EReal)) * (∑ k : Fin 1024, x (ix3 (rowTok r) (rowPos r) k) * wt (ix2 q k))
      = flat x mask wv wt (ix2 r q) :=
  blend_eq (mask (ix2 (rowTok r) (rowPos r))) _ _

end Cert.Routed

end
-- ==== Proof.ArrayValue.lean ====
/-
  The program's result: the routed linear layer of its four arguments.

  The program flattens the tokens (`x` to `[32768, 1024]`, the mask to a column `[32768, 1]` read as numbers `0` / `1`),
  transposes both weight matrices, and runs 64 grid points. Point `t` takes rows `512 t … 512 t + 511` of the flattened
  activations and of the gate column and both transposed weight matrices whole, and writes rows `512 t … 512 t + 511` of a
  `[32768, 1024]` output; afterwards the output is reshaped to `[4, 8192, 1024]`.
  So at row `r = 512 t + p` and column `q` the point's blend is the gate of token `r` times `Σ_k x[r, k] · wv[q, k]` plus
  its complement times `Σ_k x[r, k] · wt[q, k]` — the routed layer over flattened tokens at `(r, q)` by the blending law. The 64
  row blocks tile the output, so the whole output array is that function, and its reshape is the routed layer.
-/
import proofs.«111194_j17377437680121_1_alg».proof.Proof.Gen.KernelIdeal.Frame
import proofs.«111194_j17377437680121_1_alg».proof.Proof.PointValue
import proofs.«111194_j17377437680121_1_alg».proof.Proof.Flatten
import Idealize.ShloMosaic.Lib.StableHlo.Run
import Idealize.ShloMosaic.Lib.Pipeline.Value
import Idealize.ShloMosaic.Lib.ValueIdx
import Idealize.ShloMosaic.PureOps.Ideal

noncomputable section

open scoped BigOperators

namespace Cert.KernelIdeal.ArrayValue

open Cert.KernelIdeal Cert.KernelIdeal.Gen Cert.KernelIdeal.PointValue Cert.Routed
open Idealize.ShloMosaic Idealize.ShloMosaic.TcCoe Idealize.SL.Sem Idealize.ShloMosaic.StableHlo
open Idealize.ShloMosaic.ValueIdx
open Idealize.ShloMosaic.Pipeline (Dat)

/-! ## One point's block of the output, over plain arrays -/

/-- If a point's activation block holds row `r` of the tokens at its row `p`, its weight blocks are the transposed weight
    matrices, and its gate at row `p` is token `r`'s bit read as a number, then its output at `(p, q)` is the routed layer over
    flattened tokens at `(r, q)`. -/
theorem point_flat (x : SX.Idx → EReal) (mask : SM.Idx → BitVec 1) (wv wt : SW.Idx → EReal)
    (xb : Vec Ideal S512x1024 .f32) (wvT wtT : Vec Ideal S1024x1024 .f32) (g : Vec Ideal S512x1 .f32)
    (r : Fin 32768) (p : Fin 512) (q : Fin 1024)
    (hx : ∀ k : Fin 1024, xb (ix2 p k) = x (ix3 (rowTok r) (rowPos r) k))
    (hv : ∀ k : Fin 1024, wvT (ix2 k q) = wv (ix2 q k)) (ht : ∀ k : Fin 1024, wtT (ix2 k q) = wt (ix2 q k))
    (hg : g (ix2 p (0 : Fin 1)) = (((mask (ix2 (rowTok r) (rowPos r))).toNat : ℝ) : EReal)) :
    k0_pay1 (F := Ideal) xb wvT wtT g (ix2 p q) = flat x mask wv wt (ix2 r q) := by
  have hA : (∑ k : Fin 1024, xb (ix2 p k) * wvT (ix2 k q)) = ∑ k : Fin 1024, x (ix3 (rowTok r) (rowPos r) k) * wv (ix2 q k) :=
    Finset.sum_congr rfl fun k _ => by rw [hx k, hv k]
  have hB : (∑ k : Fin 1024, xb (ix2 p k) * wtT (ix2 k q)) = ∑ k : Fin 1024, x (ix3 (rowTok r) (rowPos r) k) * wt (ix2 q k) :=
    Finset.sum_congr rfl fun k _ => by rw [hx k, ht k]
  rw [point_apply, hg, hA, hB]
  exact blend_row x mask wv wt r q

/-! ## The arrays the region finds -/

variable (m : (ℓ : Loc nD τ sig) → Buf (Elt Ideal) ℓ) (ρ : Dev nD → PrngReg)

/-- The four arguments on core `c`. -/
abbrev argX (c : Dev nD) : SX.Idx → EReal := m ((c : Thread nD τ).loc main_arg0)
abbrev argM (c : Dev nD) : SM.Idx → BitVec 1 := m ((c : Thread nD τ).loc main_arg1)
abbrev argWv (c : Dev nD) : SW.Idx → EReal := m ((c : Thread nD τ).loc main_arg2)
abbrev argWt (c : Dev nD) : SW.Idx → EReal := m ((c : Thread nD τ).loc main_arg3)

/-- The flattened activations are the reshape of `x`. -/
theorem entry_x (c : Dev nD) : (V m c main_v0 : S32768x1024.Idx → EReal)
    = shapeCast S32768x1024 (m ((c : Thread nD τ).loc main_arg0)) shapeCasts_S4x8192x1024_S32768x1024 := by
  show StableHlo.after hostOps0 (fun b => m (c, b)) (Proc.devRef .tc main_v0) = _
  after_results <;> rfl
/-- The gate column is the reshaped mask, each bit read as a number. -/
theorem entry_g (c : Dev nD) : (V m c main_v2 : S32768x1.Idx → EReal)
    = uitofp (F := Ideal) .f32 (shapeCast S32768x1 (m ((c : Thread nD τ).loc main_arg1)) shapeCasts_S4x8192_S32768x1) := by
  show StableHlo.after hostOps0 (fun b => m (c, b)) (Proc.devRef .tc main_v2) = _
  after_results <;> rfl
/-- The weight arrays are the transposes of the two weight matrices. -/
theorem entry_wv (c : Dev nD) : (V m c main_v3 : S1024x1024.Idx → EReal)
    = transpose S1024x1024 [1, 0] (m ((c : Thread nD τ).loc main_arg2)) transposes_S1024x1024_S1024x1024_1_0 := by
  show StableHlo.after hostOps0 (fun b => m (c, b)) (Proc.devRef .tc main_v3) = _
  after_results <;> rfl
theorem entry_wt (c : Dev nD) : (V m c main_v4 : S1024x1024.Idx → EReal)
    = transpose S1024x1024 [1, 0] (m ((c : Thread nD τ).loc main_arg3)) transposes_S1024x1024_S1024x1024_1_0 := by
  show StableHlo.after hostOps0 (fun b => m (c, b)) (Proc.devRef .tc main_v4) = _
  after_results <;> rfl

/-- The same, element by element. -/
theorem entry_x_at (c : Dev nD) (r : Fin 32768) (k : Fin 1024) :
    (V m c main_v0 : S32768x1024.Idx → EReal) (ix2 r k) = argX m c (ix3 (rowTok r) (rowPos r) k) :=
  (congrFun (entry_x m c) (ix2 r k)).trans (flatten_x _ _ r k)
theorem entry_g_at (c : Dev nD) (r : Fin 32768) :
    (V m c main_v2 : S32768x1.Idx → EReal) (ix2 r (0 : Fin 1)) = (((argM m c (ix2 (rowTok r) (rowPos r))).toNat : ℝ) : EReal) :=
  (congrFun (entry_g m c) (ix2 r (0 : Fin 1))).trans (by
    show FloatOps.uitofp (F := Ideal) .f32
      (shapeCast S32768x1 (m ((c : Thread nD τ).loc main_arg1)) shapeCasts_S4x8192_S32768x1 (ix2 r (0 : Fin 1))) = _
    rw [flatten_mask]
    rfl)
theorem entry_wv_at (c : Dev nD) (k q : Fin 1024) :
    (V m c main_v3 : S1024x1024.Idx → EReal) (ix2 k q) = argWv m c (ix2 q k) :=
  (congrFun (entry_wv m c) (ix2 k q)).trans (transpose_w _ _ k q)
theorem entry_wt_at (c : Dev nD) (k q : Fin 1024) :
    (V m c main_v4 : S1024x1024.Idx → EReal) (ix2 k q) = argWt m c (ix2 q k) :=
  (congrFun (entry_wt m c) (ix2 k q)).trans (transpose_w _ _ k q)

/-! ## The blocks a point is handed -/

/-- The index maps over the grid: the activations', the gate's and the output's block row is the point; the weights' block
    is always the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of point `t`'s blocks is row `512 t + p` of the flattened arrays. -/
def rowOf (t : Fin cfg0.N) (p : Fin 512) : Fin 32768 :=
  ⟨t.val * 512 + p.val, by have ht : t.val < 64 := lt_of_lt_of_eq t.isLt N_0; have hp := p.isLt; omega⟩

theorem blk_x (c : Dev nD) (t : Fin cfg0.N) (p : Fin 512) (k : Fin 1024) :
    iblk m c 0 t (ix2 p k) = argX m c (ix3 (rowTok (rowOf t p)) (rowPos (rowOf t p)) k) := by
  obtain ⟨e0, e1, -⟩ := idx_facts t
  show (V m c main_v0 : S32768x1024.Idx → EReal) (((cfg0.win 0).blk t).view.emb (ix2 p k)) = _
  rw [show ((cfg0.win 0).blk t).view.emb (ix2 p k) = ix2 (rowOf t p) k from funext fun a => Fin.ext (by
    match a with
    | ⟨0, _⟩ => show win0_0.index t (0 : Fin 2) * 512 + 1 * p.val = t.val * 512 + p.val; omega
    | ⟨1, _⟩ => show win0_0.index t (1 : Fin 2) * 1024 + 1 * k.val = k.val; omega)]
  exact entry_x_at m c (rowOf t p) k

theorem blk_g (c : Dev nD) (t : Fin cfg0.N) (p : Fin 512) :
    iblk m c 3 t (ix2 p (0 : Fin 1))
      = (((argM m c (ix2 (rowTok (rowOf t p)) (rowPos (rowOf t p)))).toNat : ℝ) : EReal) := by
  obtain ⟨-, -, -, -, -, -, e0, e1, -⟩ := idx_facts t
  show (V m c main_v2 : S32768x1.Idx → EReal) (((cfg0.win 3).blk t).view.emb (ix2 p (0 : Fin 1))) = _
  rw [show ((cfg0.win 3).blk t).view.emb (ix2 p (0 : Fin 1)) = ix2 (rowOf t p) (0 : Fin 1) from funext fun a => Fin.ext (by
    match a with
    | ⟨0, _⟩ => show win0_3.index t (0 : Fin 2) * 512 + 1 * p.val = t.val * 512 + p.val; omega
    | ⟨1, _⟩ => show win0_3.index t (1 : Fin 2) * 1 + 1 * 0 = 0; omega)]
  exact entry_g_at m c (rowOf t p)

theorem blk_wv (c : Dev nD) (t : Fin cfg0.N) (k q : Fin 1024) :
    iblk m c 1 t (ix2 k q) = argWv m c (ix2 q k) := by
  obtain ⟨-, -, e0, e1, -⟩ := idx_facts t
  show (V m c main_v3 : S1024x1024.Idx → EReal) (((cfg0.win 1).blk t).view.emb (ix2 k q)) = _
  rw [show ((cfg0.win 1).blk t).view.emb (ix2 k q) = ix2 k q from funext fun a => Fin.ext (by
    match a with
    | ⟨0, _⟩ => show win0_1.index t (0 : Fin 2) * 1024 + 1 * k.val = k.val; omega
    | ⟨1, _⟩ => show win0_1.index t (1 : Fin 2) * 1024 + 1 * q.val = q.val; omega)]
  exact entry_wv_at m c k q

theorem blk_wt (c : Dev nD) (t : Fin cfg0.N) (k q : Fin 1024) :
    iblk m c 2 t (ix2 k q) = argWt m c (ix2 q k) := by
  obtain ⟨-, -, -, -, e0, e1, -⟩ := idx_facts t
  show (V m c main_v4 : S1024x1024.Idx → EReal) (((cfg0.win 2).blk t).view.emb (ix2 k q)) = _
  rw [show ((cfg0.win 2).blk t).view.emb (ix2 k q) = ix2 k q from funext fun a => Fin.ext (by
    match a with
    | ⟨0, _⟩ => show win0_2.index t (0 : Fin 2) * 1024 + 1 * k.val = k.val; omega
    | ⟨1, _⟩ => show win0_2.index t (1 : Fin 2) * 1024 + 1 * q.val = q.val; omega)]
  exact entry_wt_at m c k q

/-! ## What a point writes back, and the whole output array -/

theorem zero_offsets : (![0, 0] : Fin 2 → Nat) = fun _ => 0 := funext fun a => by fin_cases a <;> rfl

/-- Point `t` writes back block `t` of the routed layer over flattened tokens. -/
theorem flushed_eq (c : Dev nD) (t : Fin cfg0.N) :
    (dats m 0 c).flushed 4 t
      = ((cfg0.win 4).blk t).view.read (Elt Ideal) (flat (argX m c) (argM m c) (argWv m c) (argWt m c)) := by
  show (cfg0.win 4).cut (grid0.coords t) ((dats m 0 c).after 4 t) = _
  rw [after0_4]
  unfold out0_4
  rw [View.canon_unit_zero zero_offsets]
  simp only [View.ld_unit_zero (S := S512x1024) zero_offsets, View.ld_unit_zero (S := S1024x1024) zero_offsets,
    View.ld_unit_zero (S := S512x1) zero_offsets]
  funext j
  obtain ⟨p, q, rfl⟩ : ∃ (p : Fin 512) (q : Fin 1024), j = ix2 p q := ⟨j 0, j 1, eq_ix2 j⟩
  obtain ⟨-, -, -, -, -, -, -, -, e0, e1⟩ := idx_facts t
  show k0_pay1 (F := Ideal) (iblk m c 0 t) (iblk m c 1 t) (iblk m c 2 t) (iblk m c 3 t) (ix2 p q)
    = flat (argX m c) (argM m c) (argWv m c) (argWt m c) (((cfg0.win 4).blk t).view.emb (ix2 p q))
  rw [show ((cfg0.win 4).blk t).view.emb (ix2 p q) = ix2 (rowOf t p) q from funext fun a => Fin.ext (by
    match a with
    | ⟨0, _⟩ => show win0_4.index t (0 : Fin 2) * 512 + 1 * p.val = t.val * 512 + p.val; omega
    | ⟨1, _⟩ => show win0_4.index t (1 : Fin 2) * 1024 + 1 * q.val = q.val; omega)]
  exact point_flat (argX m c) (argM m c) (argWv m c) (argWt m c) (iblk m c 0 t) (iblk m c 1 t) (iblk m c 2 t) (iblk m c 3 t)
    (rowOf t p) p q (fun k => blk_x m c t p k) (fun k => blk_wv m c t k q) (fun k => blk_wt m c t k q) (blk_g m c t p)

/-- An index of the output array is in point `t`'s block iff each coordinate is in the block's range on its axis. -/
theorem mem_blk (t : Fin cfg0.N) (i : S32768x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5).slice (win0_4.rect t)).set ↔ _
  rw [View.set_slice_whole, Rect.mem_set_unit]
  exact Iff.rfl

/-- The point whose block holds row `r`. -/
def pointOf (r : Fin 32768) : Fin cfg0.N :=
  ⟨r.val / 512, by have hr := r.isLt; rw [show cfg0.N = 64 from N_0]; omega⟩

/-- The 64 row blocks tile the output: row `r` is in point `r / 512`'s block. -/
theorem cover (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  refine ⟨pointOf (i 0), flush0_4 _, ?_⟩
  rw [mem_blk]
  obtain ⟨-, -, -, -, -, -, -, -, e0, e1⟩ := idx_facts (pointOf (i 0))
  have hv : (pointOf (i 0)).val = (i 0).val / 512 := rfl
  intro a
  match a with
  | ⟨0, _⟩ =>
    show win0_4.index (pointOf (i 0)) (0 : Fin 2) * 512 ≤ (i 0).val
      ∧ (i 0).val < win0_4.index (pointOf (i 0)) (0 : Fin 2) * 512 + 512
    omega
  | ⟨1, _⟩ =>
    show win0_4.index (pointOf (i 0)) (1 : Fin 2) * 1024 ≤ (i 1).val
      ∧ (i 1).val < win0_4.index (pointOf (i 0)) (1 : Fin 2) * 1024 + 1024
    omega

/-- THE OUTPUT ARRAY after the run is the routed layer over flattened tokens. -/
theorem final (c : Dev nD) :
    (dats m 0 c).arrAt 4 cfg0.N = flat (argX m c) (argM m c) (argWv m c) (argWt m c) :=
  (dats m 0 c).arrAt_eq_of_cover 4 _ (fun t _ => flushed_eq m c t) cover

/-! ## The reshape after the region, and the run -/

/-- The program's result buffer after the last line: the output array reshaped to `[4, 8192, 1024]`. -/
theorem tail_result (c : Dev nD) : Pipeline.afterTail₀ cfgs (dats m) 0 (V0 m) [hostOps1] c main_v6
    = shapeCast S4x8192x1024 ((dats m 0 c).arrAt 4 cfg0.N) shapeCasts_S32768x1024_S4x8192x1024 := by
  unfold Pipeline.afterTail₀
  show StableHlo.after hostOps1 _ (Proc.devRef .tc main_v6) = _
  after_results
  rw [Pipeline.withArrays_arr spec0 launch0.win.arr_inj c _ _ 4]
  rfl

/-- It is the routed layer of the arguments. -/
theorem result_eq (c : Dev nD) : Pipeline.afterTail₀ cfgs (dats m) 0 (V0 m) [hostOps1] c main_v6
    = routed (argX m c) (argM m c) (argWv m c) (argWt m c) := by
  rw [tail_result, final]
  exact unflatten _ _ _ _ _

/-- THE RUN: every weakly fair execution terminates with the result buffer at the routed layer of the argument arrays,
    the arguments unchanged. -/
theorem run : θ_run defs (onTc (τ := τ) (main (F := Ideal))) ⟨m, fun _ => 0, ρ⟩ fun r => ∀ c : Dev nD,
      r.2.mem ((c.tc : Thread nD τ).loc main_v6) = routed (argX m c) (argM m c) (argWv m c) (argWt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.lean ====
/-
  A routed pair of linear experts, computed two ways, gives one result on the extended reals.

  Arguments: activations `x : [4, 8192, 1024]`, a one-bit mask per token `[4, 8192]`, two weight matrices
  `wv, wt : [1024, 1024]` (output feature first). The result at token `(b, s)` and output feature `o` is
      Σ_d x[b, s, d] · wv[o, d]   if the token's bit is set,      Σ_d x[b, s, d] · wt[o, d]   otherwise
  (`Cert.Routed.routed`).
  The kernel program flattens the tokens, reads the mask as a column of numbers `g ∈ {0, 1}`, transposes the weights, and on
  each of 64 row blocks forms BOTH products and blends them, `g · (x · wvᵀ) + (1 − g) · (x · wtᵀ)`; the reference zeroes
  each token's row on the expert it does not use and adds the two full products. Either way the unused product contributes
  `0 · y` or a sum of `0 · y`, which is `0` for every extended real `y`, so both are the chosen product and no finiteness of the
  inputs is used. (`ArrayValue.run` for the kernel program, `RefValue.ref_routed` over the reference's run for the reference.)
  The three programs' runs leave their arguments unchanged; nothing was rewritten between the kernel program and its idealized
  text, so that conjunct is trivial.
-/
import proofs.«111194_j17377437680121_1_alg».proof.Defs
import proofs.«111194_j17377437680121_1_alg».proof.Proof.Gen.Kernel
import proofs.«111194_j17377437680121_1_alg».proof.Proof.Gen.Kernel.Skeleton
import proofs.«111194_j17377437680121_1_alg».proof.Proof.Gen.Kernel.Launch
import proofs.«111194_j17377437680121_1_alg».proof.Proof.Gen.Kernel.Points
import proofs.«111194_j17377437680121_1_alg».proof.Proof.Gen.Kernel.Frame
import proofs.«111194_j17377437680121_1_alg».proof.Proof.Gen.KernelIdeal
import proofs.«111194_j17377437680121_1_alg».proof.Proof.Gen.KernelIdeal.Skeleton
import proofs.«111194_j17377437680121_1_alg».proof.Proof.Gen.KernelIdeal.Launch
import proofs.«111194_j17377437680121_1_alg».proof.Proof.Gen.KernelIdeal.Points
import proofs.«111194_j17377437680121_1_alg».proof.Proof.Gen.KernelIdeal.Frame
import proofs.«111194_j17377437680121_1_alg».proof.Proof.Gen.ReferenceIdeal
import proofs.«111194_j17377437680121_1_alg».proof.Proof.Gen.Pre_finite_inputs
import proofs.«111194_j17377437680121_1_alg».proof.Proof.Gen.ReferenceIdeal.Run
import proofs.«111194_j17377437680121_1_alg».proof.Proof.Gen.ReferenceIdeal.Read
import proofs.«111194_j17377437680121_1_alg».proof.Proof.RefRouted
import proofs.«111194_j17377437680121_1_alg».proof.Proof.ArrayValue
import Idealize.ShloMosaic.Adequacy
import Idealize.ShloMosaic.Init

noncomputable section

namespace Cert.Proof

open Idealize.ShloMosaic Idealize.ShloMosaic.TcCoe Idealize.SL.Sem

/-- The kernel program as printed runs and keeps its arguments. -/
theorem frame_kernel : Cert.frame_Kernel := fun m ρ _ => Cert.Kernel.Gen.frame m ρ
/-- So does its idealized text. -/
theorem frame_kernel_ideal : Cert.frame_KernelIdeal := fun m ρ _ => Cert.KernelIdeal.Gen.frame m ρ
/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the routed layer of those arguments. -/
theorem algebraic : Cert.algebraic_KernelIdeal_ReferenceIdeal := by
  intro m ρ m' ρ' _ hagree
  refine ⟨fun c => Cert.Routed.routed (Cert.KernelIdeal.ArrayValue.argX m c) (Cert.KernelIdeal.ArrayValue.argM m c)
    (Cert.KernelIdeal.ArrayValue.argWv m c) (Cert.KernelIdeal.ArrayValue.argWt m c), Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_routed,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
